-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S600000 32) (main_arg2 : IVec S600000 32) (main_arg3 : FVec F S600000 .f32) (main_arg4 : FVec F S128x128 .f32) (main_arg5 : FVec F S128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S5000x128 : Shape := ⟨2, ![5000, 128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 27
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S1x128, .f32⟩
  | .hbm, ⟨25, _⟩ => ⟨S1x128, .f32⟩
  | .hbm, ⟨26, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  dot_S5000x128_S128x128_S5000x128_1_0_0_1_n_n_wf : DotDims.WF S5000x128 S128x128 S5000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S600000x1 : Shape := ⟨2, ![600000, 1]⟩
abbrev S_ : Shape := ⟨0, ![]⟩
abbrev S600000x128 : Shape := ⟨2, ![600000, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S600000, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S100000x128, .f32⟩
  | .hbm, ⟨8, _⟩ => ⟨S600000x1, .f32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S600000x128, .f32⟩
  | .hbm, ⟨19, _⟩ => ⟨S600000x128, .f32⟩
  | .hbm, ⟨20, _⟩ => ⟨S_, .f32⟩
  | .hbm, ⟨21, _⟩ => ⟨S100000x128, .f32⟩
  | .hbm, ⟨22, _⟩ => ⟨S600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S_, .f32⟩
  | .hbm, ⟨33, _⟩ => ⟨S100000x128, .f32⟩
  | .hbm, ⟨34, _⟩ => ⟨S100000x128, .i1⟩
  | .hbm, ⟨35, _⟩ => ⟨S_, .f32⟩
  | .hbm, ⟨36, _⟩ => ⟨S100000x128, .f32⟩
  | .hbm, ⟨37, _⟩ => ⟨S100000x128, .i1⟩
  | .hbm, ⟨38, _⟩ => ⟨S_, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_cst_0 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_cst_1 : Ref sig .tc := ⟨.hbm, 38, rfl⟩
abbrev main_call0_call0_call0_v0 : Ref sig .tc := ⟨.hbm, 39, rfl⟩
abbrev main_call0_call0_call0_v1 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_v0 : Ref sig .tc := ⟨.hbm, 46, rfl⟩
abbrev main_call0_cst_0 : Ref sig .tc := ⟨.hbm, 47, rfl⟩
abbrev main_call0_v1 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.Spec.lean ====
/-
  One layer of graph message passing, as a function of the seven argument arrays.

  With X the node features [100000, 128], W the weights [128, 128], (rows, cols, vals) the 600000 weighted edges,
  s the skip weights and b the bias (both of length 128):

    h      = X · W                                          (entry (p, q):  ∑ κ < 128, X (p, κ) · W (κ, q))
    agg    = the edge messages vals e · h (cols e, ·) summed into row (rows e) of a zero array
    x      = (h · s + agg) + b                              (s, b along the channel axis)
    result = λ · (x if x > 0, else α · (exp x − 1))        (the scaled exponential linear unit)

  Everything but h is stated for any float family: it is the same tree of operations on both sides. The edge
  aggregation is one opaque function of h: nothing here looks inside the gather or the scatter.
-/
import Idealize.ShloMosaic.Lib.ValueIdx
import Idealize.ShloMosaic.PureOps.Ideal.Laws

noncomputable section

namespace Cert.Gcn

open Idealize.ShloMosaic Idealize.ShloMosaic.ValueIdx

abbrev Nodes : Shape := ⟨2, ![100000, 128]⟩
abbrev Wts : Shape := ⟨2, ![128, 128]⟩
abbrev Row : Shape := ⟨2, ![1, 128]⟩
abbrev Chan : Shape := ⟨1, ![128]⟩
abbrev Edges : Shape := ⟨1, ![600000]⟩
abbrev EdgeCol : Shape := ⟨2, ![600000, 1]⟩
abbrev EdgeRows : Shape := ⟨2, ![600000, 128]⟩
abbrev Scal : Shape := ⟨0, ![]⟩

variable {F : FTy → Type} [FloatOps F]

/-- The projected features h = X · W at the ideal values: entry (p, q) is the sum over κ of X (p, κ) · W (κ, q). -/
def proj (X : FVec Ideal Nodes .f32) (W : FVec Ideal Wts .f32) : FVec Ideal Nodes .f32 :=
  fun i => ∑ κ : Fin 128, X (ix2 (i 0) κ) * W (ix2 κ (i 1))

theorem proj_apply (X : FVec Ideal Nodes .f32) (W : FVec Ideal Wts .f32) (p : Fin 100000) (q : Fin 128) :
    proj X W (ix2 p q) = ∑ κ : Fin 128, X (ix2 p κ) * W (ix2 κ q) := rfl

/-- The scaled exponential linear unit on one value: λ · x above zero, λ · α · (exp x − 1) otherwise, with
    λ = 0x3F867D5F and α = 0x3FD62D7D as single-precision patterns. -/
def act (x : F .f32) : F .f32 :=
  FloatOps.mulf (Scalar.ofBits .f32 0x3F867D5F#32)
    (Scalar.select (FloatOps.cmpf .ogt x (Scalar.ofBits .f32 0x00000000#32)) x
      (FloatOps.mulf (Scalar.ofBits .f32 0x3FD62D7D#32)
        (FloatOps.subf (FloatOps.exp x) (Scalar.ofBits .f32 0x3F800000#32))))

/-- The value before the activation at node p, channel q: h (p, q) · s q + agg (p, q) + b q, with s and b held as
    one-row arrays. -/
def pre (h a : FVec F Nodes .f32) (s b : FVec F Row .f32) : FVec F Nodes .f32 :=
  fun i => FloatOps.addf (FloatOps.addf (FloatOps.mulf (h i) (s (ix2 0 (i 1)))) (a i)) (b (ix2 0 (i 1)))

/-- The layer's result from the projected features, the aggregated messages, the skip weights and the bias. -/
def comb (h a : FVec F Nodes .f32) (s b : FVec F Row .f32) : FVec F Nodes .f32 :=
  fun i => act (pre h a s b i)

/-- The aggregated messages: each edge e carries vals e · h (cols e, ·), a negative column index counted from the
    end, and the messages are summed into row (rows e) of a zero array. The gather and the scatter are the host's own;
    their dimension numbers are parameters. -/
def agg (g : GatherDims Nodes EdgeCol EdgeRows) (sc : ScatterDims Nodes EdgeCol EdgeRows)
    (h1 : Edges.BroadcastsInDim EdgeCol (![0] : Fin 1 → Fin EdgeCol.rank))
    (h0 : Scal.BroadcastsInDim Edges (![] : Fin 0 → Fin Edges.rank))
    (h2 : EdgeCol.BroadcastsInDim EdgeRows (![0, 1] : Fin 2 → Fin EdgeRows.rank))
    (hN : Scal.BroadcastsInDim Nodes (![] : Fin 0 → Fin Nodes.rank))
    (h : FVec F Nodes .f32) (rows cols : IVec Edges 32) (vals : FVec F Edges .f32) : FVec F Nodes .f32 :=
  Host.scatterAdd sc (broadcastInDim Nodes ![] hN (constant Scal .f32 0x00000000#32)) (broadcastInDim EdgeCol ![0] h1 rows)
    (mulf (broadcastInDim EdgeRows ![0, 1] h2 (broadcastInDim EdgeCol ![0] h1 vals))
      (Host.gather g h (broadcastInDim EdgeCol ![0] h1
        (select (cmpi .slt cols (broadcastInDim Edges ![] h0 (constantI Scal 32 0#32)))
          (addi cols (broadcastInDim Edges ![] h0 (constantI Scal 32 100000#32))) cols))))

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.MatmulArray.lean ====
/-
  The first kernel's output array: each grid point t multiplies rows 5000·t … 5000·t + 4999 of the features by
  the whole weight matrix, so after the twenty points the array holds the projected features `Cert.Gcn.proj`.
-/
import proofs.«151549_j10290741641786_1_alg».proof.Proof.Gen.KernelIdeal.Frame
import proofs.«151549_j10290741641786_1_alg».proof.Proof.Spec
import proofs.«151549_j10290741641786_1_alg».proof.Proof.LibPlainDot
import Idealize.ShloMosaic.Lib.Pipeline.Value

noncomputable section

namespace Cert.KernelIdeal.Region0

open Cert.KernelIdeal Cert.KernelIdeal.Gen Idealize.ShloMosaic Idealize.ShloMosaic.TcCoe Idealize.SL.Sem Idealize.ShloMosaic.ValueIdx

/-- The zero offset of a whole-block access. -/
theorem hz : (![0, 0] : Fin 2 → Nat) = fun _ => 0 := funext fun a => by fin_cases a <;> rfl

/-- The index maps over the twenty points: point t takes block (t, 0) of the features, the whole weights, and
    writes block (t, 0) of the output. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The dimension numbers of the kernel's product are those of a plain matrix product. -/
theorem plain : Cert.PlainDot.Plain (a := 5000) (k := 128) (b := 128) dot_S5000x128_S128x128_S5000x128_1_0_0_1_n_n :=
  ⟨rfl, rfl, rfl, rfl, rfl, rfl⟩

/-- The body's payload at an entry: the row of the feature block against the column of the weights. -/
theorem pay_apply (x0 : Vec Ideal S5000x128 .f32) (x1 : Vec Ideal S128x128 .f32) (p : Fin 5000) (q : Fin 128) :
    k0_pay1 x0 x1 (ix2 p q) = ∑ κ : Fin 128, x0 (ix2 p κ) * x1 (ix2 κ q) := by
  unfold k0_pay1
  refine (Cert.PlainDot.matmul_zero_apply plain rfl rfl none _ _ p q).trans ?_
  simp only [truncf_apply]

variable (V : (c : Dev nD) → (b : Ref sig .tc) → Buf (Elt Ideal) ((c : Thread nD τ).loc b)) (c : Dev nD)

/-- Row p of point t's block is row 5000·t + p of the array. -/
def row (t : Fin cfg0.N) (p : Fin 5000) : Fin 100000 :=
  ⟨5000 * t.val + p.val, by have hN : cfg0.N = 20 := N_0; have := t.isLt; have := p.isLt; omega⟩

/-- The feature block at point t, at (p, κ): the features at (5000·t + p, κ). -/
theorem feat_blk (t : Fin cfg0.N) (p : Fin 5000) (κ : Fin 128) :
    (iblk0 V c 0 t : Vec Ideal S5000x128 .f32) (ix2 p κ) = (V c main_arg0 : S100000x128.Idx → Elt Ideal .f32) (ix2 (row t p) κ) := by
  obtain ⟨e0, e1, -⟩ := idx_facts t
  show V c main_arg0 (((cfg0.win 0).blk t).view.emb (ix2 p κ)) = V c main_arg0 _
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * κ.val = κ.val; omega

/-- The weight block at any point is the whole weight matrix. -/
theorem wts_blk (t : Fin cfg0.N) (κ q : Fin 128) :
    (iblk0 V c 1 t : Vec Ideal S128x128 .f32) (ix2 κ q) = (V c main_arg4 : S128x128.Idx → Elt Ideal .f32) (ix2 κ q) := by
  obtain ⟨-, -, e2, e3, -⟩ := idx_facts t
  show V c main_arg4 (((cfg0.win 1).blk t).view.emb (ix2 κ q)) = V c main_arg4 _
  refine congrArg _ (funext fun a => Fin.ext ?_)
  match a with
  | ⟨0, _⟩ => show win0_1.index t (0 : Fin 2) * 128 + 1 * κ.val = κ.val; omega
  | ⟨1, _⟩ => show win0_1.index t (1 : Fin 2) * 128 + 1 * q.val = q.val; omega

/-- Entry (p, q) of point t's output block sits at (5000·t + p, q) of the array. -/
theorem out_emb (t : Fin cfg0.N) (p : Fin 5000) (q : Fin 128) :
    ((cfg0.win 2).blk t).view.emb (ix2 p q) = (ix2 (row t p) q : S100000x128.Idx) := by
  obtain ⟨-, -, -, -, e4, e5⟩ := idx_facts t
  refine funext fun a => Fin.ext ?_
  match a with
  | ⟨0, _⟩ => show win0_2.index t (0 : Fin 2) * 5000 + 1 * p.val = 5000 * t.val + p.val; omega
  | ⟨1, _⟩ => show win0_2.index t (1 : Fin 2) * 128 + 1 * q.val = q.val; omega

/-- What point t writes back is its block of the projected features. -/
theorem flushed_eq (t : Fin cfg0.N) :
    (dat0 V c).flushed 2 t = ((cfg0.win 2).blk t).view.read (Elt Ideal) (Cert.Gcn.proj (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Gcn.proj (V c main_arg0) (V c main_arg4) (((cfg0.win 2).blk t).view.emb (ix2 p q))
  rw [out_emb, Cert.Gcn.proj_apply]
  refine (pay_apply _ _ p q).trans (Finset.sum_congr rfl fun κ _ => ?_)
  rw [feat_blk, wts_blk]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- The twenty blocks tile the array: row r lies in the block of point r / 5000. -/
theorem cover (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by omega⟩, rfl⟩
  refine ⟨t, flush0_2 t, ?_⟩
  rw [mem_blk]
  obtain ⟨-, -, -, -, e4, e5⟩ := idx_facts t
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The matmul region's output array after its twenty points, from any entry contents `V`. -/
theorem array0 (V : (c : Dev nD) → (b : Ref sig .tc) → Buf (Elt Ideal) ((c : Thread nD τ).loc b)) (c : Dev nD) :
    (dat0 (F := Ideal) V c).arrAt 2 cfg0.N = Cert.Gcn.proj (V c main_arg0) (V c main_arg4) :=
  (dat0 V c).arrAt_eq_of_cover 2 (Cert.Gcn.proj (V c main_arg0) (V c main_arg4)) (fun t _ => flushed_eq V c t) cover

end Cert.KernelIdeal.Region0

end
-- ==== Proof.CombineArray.lean ====
/-
  The second kernel's output array: each grid point t combines rows 5000·t … 5000·t + 4999 of the projected
  features and of the aggregated messages with the skip weights and the bias, pointwise, so after the twenty
  points the array holds `Cert.Gcn.comb` of the four arrays.

  The steps: the body's value at one index of a block is the activation of h · s + a + b at that index, the two
  one-row operands read at row 0 (`pay_apply`); the index maps put point t's blocks of h and a at rows
  5000·t … 5000·t + 4999, like the output's, and leave s and b whole (`index_maps`), so each block read is the
  array read at the output's index (`proj_block_read` … `bias_block_read`); hence what point t writes back is
  block t of the combined array (`flushed_eq`); the twenty blocks tile the 100000 rows (`cover`).
-/
import proofs.«151549_j10290741641786_1_alg».proof.Proof.Gen.KernelIdeal.Frame
import proofs.«151549_j10290741641786_1_alg».proof.Proof.Spec
import Idealize.ShloMosaic.Lib.Pipeline.Value
import Idealize.ShloMosaic.Lib.ValueLayout

noncomputable section

namespace Cert.KernelIdeal.Region1

open Cert.KernelIdeal Cert.KernelIdeal.Gen Idealize.ShloMosaic Idealize.ShloMosaic.TcCoe Idealize.SL.Sem Idealize.ShloMosaic.ValueIdx

variable {F : FTy → Type} [FloatOps F]

/-! ## The body's value at one index -/

/-- At row p and channel q of a block the body computes the activation of x0 (p, q) · x2 (0, q) + x1 (p, q) + x3 (0, q):
    the shape casts are identities, each one-row operand is read at row 0 by its broadcast over the 5000 rows, and every
    other operation acts index by index. -/
theorem pay_apply (x0 x1 : Vec F S5000x128 .f32) (x2 x3 : Vec F S1x128 .f32) (p : Fin 5000) (q : Fin 128) :
    k1_pay1 x0 x1 x2 x3 (ix2 p q) = Cert.Gcn.act (FloatOps.addf (FloatOps.addf (FloatOps.mulf (x0 (ix2 p q)) (x2 (ix2 0 q))) (x1 (ix2 p q))) (x3 (ix2 0 q))) := by
  unfold k1_pay1 Cert.Gcn.act
  simp only [shapeCast_self]
  have h2 : broadcastTo S5000x128 x2 broadcasts_S1x128_S5000x128 (ix2 p q) = x2 (ix2 0 q) :=
    broadcastTo_1b_ab_apply x2 broadcasts_S1x128_S5000x128 p q
  have h3 : broadcastTo S5000x128 x3 broadcasts_S1x128_S5000x128 (ix2 p q) = x3 (ix2 0 q) :=
    broadcastTo_1b_ab_apply x3 broadcasts_S1x128_S5000x128 p q
  rw [← h2, ← h3]
  rfl

/-- The activation of h · s + a + b depends only on the four scalars. -/
theorem act_pre_congr {h h' s s' a a' b b' : F .f32} (eh : h = h') (es : s = s') (ea : a = a') (eb : b = b') :
    Cert.Gcn.act (FloatOps.addf (FloatOps.addf (FloatOps.mulf h s) a) b)
      = Cert.Gcn.act (FloatOps.addf (FloatOps.addf (FloatOps.mulf h' s') a') b') := by
  subst eh es ea eb; rfl

/-! ## Where each block lies in its array -/

/-- The index maps over the twenty points: the blocks of the projected features and of the aggregated messages are the
    output's (row block t, the one column block), and the skip weights and the bias are block (0, 0), the whole row. -/
theorem index_maps : ∀ t : Fin cfg1.N, win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_4.index t (0 : Fin 2) = t.val :=
  (by decide +kernel : ∀ t : Fin grid1.N, _)

/-- The body's accesses start at offset (0, 0). -/
theorem zero_offsets : (![0, 0] : Fin 2 → Nat) = fun _ => 0 := funext fun a => by fin_cases a <;> rfl

section Blocks

variable (V : (c : Dev nD) → (b : Ref sig .tc) → Buf (Elt F) ((c : Thread nD τ).loc b)) (c : Dev nD)

/-- Point t's block of the projected features at (p, q) is the array at the index the output's block t gives (p, q):
    on each axis a block's coordinate in its array is block index × block size + the coordinate inside the block. -/
theorem proj_block_read (t : Fin cfg1.N) (p : Fin 5000) (q : Fin 128) :
    iblk1 V c 0 t (ix2 p q) = V c main_v0 (((cfg1.win 4).blk t).view.emb (ix2 p q)) := by
  show V c main_v0 (((cfg1.win 0).blk t).view.emb (ix2 p q)) = V c main_v0 (((cfg1.win 4).blk t).view.emb (ix2 p q))
  refine congrArg _ ?_
  obtain ⟨e00, e01, -, -, -, -, -, -, e41, -⟩ := index_maps t
  funext a; apply Fin.ext
  match a with
  | ⟨0, _⟩ => show win1_0.index t (0 : Fin 2) * 5000 + 1 * p.val = win1_4.index t (0 : Fin 2) * 5000 + 1 * p.val; omega
  | ⟨1, _⟩ => show win1_0.index t (1 : Fin 2) * 128 + 1 * q.val = win1_4.index t (1 : Fin 2) * 128 + 1 * q.val; omega

/-- The same for the aggregated messages. -/
theorem agg_block_read (t : Fin cfg1.N) (p : Fin 5000) (q : Fin 128) :
    iblk1 V c 1 t (ix2 p q) = V c main_v13 (((cfg1.win 4).blk t).view.emb (ix2 p q)) := by
  show V c main_v13 (((cfg1.win 1).blk t).view.emb (ix2 p q)) = V c main_v13 (((cfg1.win 4).blk t).view.emb (ix2 p q))
  refine congrArg _ ?_
  obtain ⟨-, -, e10, e11, -, -, -, -, e41, -⟩ := index_maps t
  funext a; apply Fin.ext
  match a with
  | ⟨0, _⟩ => show win1_1.index t (0 : Fin 2) * 5000 + 1 * p.val = win1_4.index t (0 : Fin 2) * 5000 + 1 * p.val; omega
  | ⟨1, _⟩ => show win1_1.index t (1 : Fin 2) * 128 + 1 * q.val = win1_4.index t (1 : Fin 2) * 128 + 1 * q.val; omega

/-- The skip weights' block is the whole row at every point: its channel q is the array at row 0 and the channel of the
    output's index. -/
theorem skip_block_read (t : Fin cfg1.N) (p : Fin 5000) (q : Fin 128) :
    iblk1 V c 2 t (ix2 (0 : Fin 1) q) = V c main_v14 (ix2 (0 : Fin 1) ((((cfg1.win 4).blk t).view.emb (ix2 p q)) 1)) := by
  show V c main_v14 (((cfg1.win 2).blk t).view.emb (ix2 (0 : Fin 1) q)) = _
  refine congrArg _ ?_
  obtain ⟨-, -, -, -, e20, e21, -, -, e41, -⟩ := index_maps t
  funext a; apply Fin.ext
  match a with
  | ⟨0, _⟩ => show win1_2.index t (0 : Fin 2) * 1 + 1 * 0 = 0; omega
  | ⟨1, _⟩ => show win1_2.index t (1 : Fin 2) * 128 + 1 * q.val = win1_4.index t (1 : Fin 2) * 128 + 1 * q.val; omega

/-- The same for the bias. -/
theorem bias_block_read (t : Fin cfg1.N) (p : Fin 5000) (q : Fin 128) :
    iblk1 V c 3 t (ix2 (0 : Fin 1) q) = V c main_v15 (ix2 (0 : Fin 1) ((((cfg1.win 4).blk t).view.emb (ix2 p q)) 1)) := by
  show V c main_v15 (((cfg1.win 3).blk t).view.emb (ix2 (0 : Fin 1) q)) = _
  refine congrArg _ ?_
  obtain ⟨-, -, -, -, -, -, e30, e31, e41, -⟩ := index_maps t
  funext a; apply Fin.ext
  match a with
  | ⟨0, _⟩ => show win1_3.index t (0 : Fin 2) * 1 + 1 * 0 = 0; omega
  | ⟨1, _⟩ => show win1_3.index t (1 : Fin 2) * 128 + 1 * q.val = win1_4.index t (1 : Fin 2) * 128 + 1 * q.val; omega

/-! ## What a point writes back -/

/-- Point t writes back block t of the combined array: the body's one store fills the whole staging block with its value
    of the four input blocks, which index by index is the combined array at the block's place. -/
theorem flushed_eq (t : Fin cfg1.N) :
    (dat1 V c).flushed 4 t = ((cfg1.win 4).blk t).view.read (Elt F)
      (Cert.Gcn.comb (V c main_v0) (V c main_v13) (V c main_v14) (V c main_v15)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S1x128) zero_offsets]
  funext j
  obtain ⟨p, q, rfl⟩ : ∃ (p : Fin 5000) (q : Fin 128), j = ix2 p q := ⟨j 0, j 1, eq_ix2 j⟩
  refine (pay_apply (iblk1 V c 0 t) (iblk1 V c 1 t) (iblk1 V c 2 t) (iblk1 V c 3 t) p q).trans ?_
  exact act_pre_congr (proj_block_read V c t p q) (skip_block_read V c t p q) (agg_block_read V c t p q)
    (bias_block_read V c t p q)

end Blocks

/-! ## The blocks tile the array -/

/-- Point t's block of the output array is the indices whose coordinate on each axis lies within one block size from
    block index × block size. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v16).slice (win1_4.rect t)).set ↔ _
  rw [View.set_slice_whole, Rect.mem_set_unit]
  exact Iff.rfl

/-- Every index of the array is in a block that is written back: row r is in the block of point r / 5000, since
    100000 = 20 · 5000, and all 128 channels are in the one column block. -/
theorem cover (i : S100000x128.Idx) :
    ∃ t : Fin cfg1.N, (cfg1.win 4).flush t = true ∧ i ∈ ((cfg1.win 4).blk t).view.set := by
  have hN : grid1.N = 20 := N_1
  have hi0 : (i 0).val < 100000 := (i 0).isLt
  have hi1 : (i 1).val < 128 := (i 1).isLt
  have ht : (i 0).val / 5000 < grid1.N := by omega
  refine ⟨⟨(i 0).val / 5000, ht⟩, flush1_4 _, ?_⟩
  rw [mem_blk]
  obtain ⟨-, -, -, -, -, -, -, -, e41, e40⟩ := index_maps ⟨(i 0).val / 5000, ht⟩
  have e40' : win1_4.index ⟨(i 0).val / 5000, ht⟩ (0 : Fin 2) = (i 0).val / 5000 := e40
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    omega

/-! ## The array -/

/-- The combine region's output array after its twenty points, from any entry contents `V`. -/
theorem array1 (V : (c : Dev nD) → (b : Ref sig .tc) → Buf (Elt F) ((c : Thread nD τ).loc b)) (c : Dev nD) :
    (dat1 (F := F) V c).arrAt 4 cfg1.N = Cert.Gcn.comb (V c main_v0) (V c main_v13) (V c main_v14) (V c main_v15) :=
  (dat1 V c).arrAt_eq_of_cover 4 (Cert.Gcn.comb (V c main_v0) (V c main_v13) (V c main_v14) (V c main_v15))
    (fun t _ => flushed_eq V c t) cover

end Cert.KernelIdeal.Region1

end
-- ==== Proof.HostStretch.lean ====
/-
  Between the two kernels the program runs eighteen host operations over the first kernel's output h: they
  build the edge messages and sum them by destination row (`Cert.Gcn.agg`, here at this program's own gather and
  scatter dimension numbers), and lay the skip weights and the bias out as one-row arrays. Read at the four buffers
  the second kernel's windows stage, from any contents the stretch is entered with.
-/
import proofs.«151549_j10290741641786_1_alg».proof.Proof.Gen.KernelIdeal.Launch
import proofs.«151549_j10290741641786_1_alg».proof.Proof.Spec
import Idealize.ShloMosaic.Lib.StableHlo.Run

noncomputable section

namespace Cert.KernelIdeal.Between

open Cert.KernelIdeal Cert.KernelIdeal.Gen Idealize.ShloMosaic Idealize.ShloMosaic.TcCoe Idealize.SL.Sem Idealize.ShloMosaic.StableHlo

variable {F : FTy → Type} [FloatOps F]

/-- The aggregated edge messages of projected features h. -/
def edges (h : FVec F S100000x128 .f32) (rows cols : IVec S600000 32) (vals : FVec F S600000 .f32) : FVec F S100000x128 .f32 :=
  Cert.Gcn.agg gather_S100000x128_S600000x1_S600000x128_1_0_n_n_0_1_1128 scatter_S100000x128_S600000x1_S600000x128_1_0_0_1
    bcast_S600000_S600000x1_0 bcast_S_S600000 bcast_S600000x1_S600000x128_0_1 bcast_S_S100000x128 h rows cols vals

/-- A channel vector as a one-row array. -/
def asRow (v : FVec F S128 .f32) : FVec F S1x128 .f32 := shapeCast S1x128 v shapeCasts_S128_S1x128

/-- The stretch does not write the projected features. -/
theorem feat_kept (V : Valuation τ sig (Elt F)) :
    after (hostOps1 (F := F)) V (main_v0 : DevRef τ sig) = V (main_v0 : DevRef τ sig) := by
  after_results

/-- The aggregated messages are `edges` of the projected features and the three edge arrays. -/
theorem agg_eq (V : Valuation τ sig (Elt F)) :
    after (hostOps1 (F := F)) V (main_v13 : DevRef τ sig)
      = edges (V (main_v0 : DevRef τ sig)) (V (main_arg1 : DevRef τ sig)) (V (main_arg2 : DevRef τ sig)) (V (main_arg3 : DevRef τ sig)) := by
  after_results
  rfl

/-- The skip weights as a one-row array. -/
theorem skip_eq (V : Valuation τ sig (Elt F)) :
    after (hostOps1 (F := F)) V (main_v14 : DevRef τ sig) = asRow (V (main_arg6 : DevRef τ sig)) := by
  after_results
  rfl

/-- The bias as a one-row array. -/
theorem bias_eq (V : Valuation τ sig (Elt F)) :
    after (hostOps1 (F := F)) V (main_v15 : DevRef τ sig) = asRow (V (main_arg5 : DevRef τ sig)) := by
  after_results
  rfl

end Cert.KernelIdeal.Between

end
-- ==== Proof.KernelValue.lean ====
/-
  The kernel program's result as one function of its seven arguments, at the ideal values.

  The first kernel leaves the projected features h = X · W in its output array; the host stretch between the two
  kernels leaves h where it is, aggregates the edge messages of h, and lays the skip weights and the bias out as
  one-row arrays; the second kernel's output array is then the combination of those four. The argument arrays are
  never written, so every array a step reads is the launch memory's.
-/
import proofs.«151549_j10290741641786_1_alg».proof.Proof.KernelRun
import proofs.«151549_j10290741641786_1_alg».proof.Proof.MatmulArray
import proofs.«151549_j10290741641786_1_alg».proof.Proof.CombineArray
import proofs.«151549_j10290741641786_1_alg».proof.Proof.HostStretch

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- What the program computes from its arguments. -/
def out (X : FVec Ideal S100000x128 .f32) (rows cols : IVec S600000 32) (vals : FVec Ideal S600000 .f32)
    (W : FVec Ideal S128x128 .f32) (bias skip : FVec Ideal S128 .f32) : FVec Ideal S100000x128 .f32 :=
  Cert.Gcn.comb (Cert.Gcn.proj X W) (Between.edges (Cert.Gcn.proj X W) rows cols vals) (Between.asRow skip) (Between.asRow bias)

/-- When the first kernel ends, its output array holds the projected features of the launch arrays. -/
theorem feat_at_exit (c : Dev nD) :
    W1 m ρ c (Proc.devRef .tc main_v0)
      = Cert.Gcn.proj (m ((c.tc : Thread nD τ).loc main_arg0)) (m ((c.tc : Thread nD τ).loc main_arg4)) :=
  (W1_arr m ρ c 2).trans (Region0.array0 (V0 m ρ) c)

/-- The edge arrays and the two channel vectors are as launched when the host stretch is entered. -/
theorem rows_at_exit (c : Dev nD) : W1 m ρ c (Proc.devRef .tc main_arg1) = m ((c.tc : Thread nD τ).loc main_arg1) :=
  W1_of_ne m ρ c main_arg1 (by decide)
theorem cols_at_exit (c : Dev nD) : W1 m ρ c (Proc.devRef .tc main_arg2) = m ((c.tc : Thread nD τ).loc main_arg2) :=
  W1_of_ne m ρ c main_arg2 (by decide)
theorem vals_at_exit (c : Dev nD) : W1 m ρ c (Proc.devRef .tc main_arg3) = m ((c.tc : Thread nD τ).loc main_arg3) :=
  W1_of_ne m ρ c main_arg3 (by decide)
theorem bias_at_exit (c : Dev nD) : W1 m ρ c (Proc.devRef .tc main_arg5) = m ((c.tc : Thread nD τ).loc main_arg5) :=
  W1_of_ne m ρ c main_arg5 (by decide)
theorem skip_at_exit (c : Dev nD) : W1 m ρ c (Proc.devRef .tc main_arg6) = m ((c.tc : Thread nD τ).loc main_arg6) :=
  W1_of_ne m ρ c main_arg6 (by decide)

/-- The four arrays the second kernel stages, when it is entered. -/
theorem feat_at_entry (c : Dev nD) :
    V2 m ρ c main_v0 = Cert.Gcn.proj (m ((c.tc : Thread nD τ).loc main_arg0)) (m ((c.tc : Thread nD τ).loc main_arg4)) :=
  (Between.feat_kept (W1 m ρ c)).trans (feat_at_exit m ρ c)

theorem agg_at_entry (c : Dev nD) :
    V2 m ρ c main_v13
      = Between.edges (Cert.Gcn.proj (m ((c.tc : Thread nD τ).loc main_arg0)) (m ((c.tc : Thread nD τ).loc main_arg4)))
          (m ((c.tc : Thread nD τ).loc main_arg1)) (m ((c.tc : Thread nD τ).loc main_arg2)) (m ((c.tc : Thread nD τ).loc main_arg3)) := by
  refine (Between.agg_eq (W1 m ρ c)).trans ?_
  rw [feat_at_exit m ρ c, rows_at_exit m ρ c, cols_at_exit m ρ c, vals_at_exit m ρ c]

theorem skip_at_entry (c : Dev nD) : V2 m ρ c main_v14 = Between.asRow (F := Ideal) (m ((c.tc : Thread nD τ).loc main_arg6)) := by
  refine (Between.skip_eq (W1 m ρ c)).trans ?_
  rw [skip_at_exit m ρ c]

theorem bias_at_entry (c : Dev nD) : V2 m ρ c main_v15 = Between.asRow (F := Ideal) (m ((c.tc : Thread nD τ).loc main_arg5)) := by
  refine (Between.bias_eq (W1 m ρ c)).trans ?_
  rw [bias_at_exit m ρ c]

/-- The result buffer at the last boundary is `out` of the launch arrays. -/
theorem result_eq (c : Dev nD) :
    V3 m ρ c main_v16
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  refine (W3_arr m ρ c 4).trans ((Region1.array1 (V2 m ρ) c).trans ?_)
  rw [feat_at_entry m ρ c, agg_at_entry m ρ c, skip_at_entry m ρ c, bias_at_entry m ρ c]
  rfl

/-- Every weakly fair execution of the kernel program terminates with the result buffer at `out` of the arguments
    and the arguments unchanged. -/
theorem run : θ_run defs (onTc (τ := τ) (main (F := Ideal))) ⟨m, fun _ => 0, ρ⟩ (fun r => ∀ c : Dev nD,
      r.2.mem ((c.tc : Thread nD τ).loc main_v16)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (GenRun.run_result m ρ)

end Cert.KernelIdeal.Result

end
-- ==== Proof.RefTerm.lean ====
/-
  The reference's result as one term of its seven arguments: the host's matrix product, the edge aggregation
  (the shared function `Cert.Gcn.agg` at the reference's own dimension numbers), the skip and bias terms broadcast
  along the node axis, and jax's selu — λ · where (x > 0, x, α · expm1 (where (x > 0, 0, x))).
-/
import proofs.«151549_j10290741641786_1_alg».proof.Proof.Gen.ReferenceIdeal
import proofs.«151549_j10290741641786_1_alg».proof.Proof.Spec

noncomputable section

namespace Cert.ReferenceIdeal.Term

open Cert.ReferenceIdeal Cert.ReferenceIdeal.Gen Idealize.ShloMosaic

variable {F : FTy → Type} [FloatOps F]

/-- The projected features, as the host computes them. -/
def feat (X : FVec F S100000x128 .f32) (W : FVec F S128x128 .f32) : FVec F S100000x128 .f32 :=
  Host.dotGeneral dot_S100000x128_S128x128_S100000x128_1_0_0_1_n_n none X W

/-- The aggregated edge messages of projected features h. -/
def edges (h : FVec F S100000x128 .f32) (rows cols : IVec S600000 32) (vals : FVec F S600000 .f32) : FVec F S100000x128 .f32 :=
  Cert.Gcn.agg gather_S100000x128_S600000x1_S600000x128_1_0_n_n_0_1_1128 scatter_S100000x128_S600000x1_S600000x128_1_0_0_1
    bcast_S600000_S600000x1_0 bcast_S_S600000 bcast_S600000x1_S600000x128_0_1 bcast_S_S100000x128 h rows cols vals

/-- A channel vector laid along every node's row. -/
def alongNodes (v : FVec F S128 .f32) : FVec F S100000x128 .f32 :=
  broadcastInDim S100000x128 ![0, 1] bcast_S1x128_S100000x128_0_1 (broadcastInDim S1x128 ![1] bcast_S128_S1x128_1 v)

/-- The value before the activation: h · skip + agg + bias. -/
def preact (h a : FVec F S100000x128 .f32) (bias skip : FVec F S128 .f32) : FVec F S100000x128 .f32 :=
  addf (addf (mulf h (alongNodes skip)) a) (alongNodes bias)

/-- A scalar constant at every node and channel. -/
def splat (b : BitVec 32) : FVec F S100000x128 .f32 :=
  broadcastInDim S100000x128 ![] bcast_S_S100000x128 (constant S_ .f32 b)

/-- jax's selu: λ · where (x > 0, x, α · expm1 (where (x > 0, 0, x))). -/
def selu (x : FVec F S100000x128 .f32) : FVec F S100000x128 .f32 :=
  mulf (splat 0x3F867D5F#32)
    (select (cmpf .ogt x (splat 0x00000000#32)) x
      (mulf (splat 0x3FD62D7D#32) (Host.expm1 (select (cmpf .ogt x (splat 0x00000000#32)) (splat 0x00000000#32) x))))

/-- The reference's result. -/
def out (X : FVec F S100000x128 .f32) (rows cols : IVec S600000 32) (vals : FVec F S600000 .f32)
    (W : FVec F S128x128 .f32) (bias skip : FVec F S128 .f32) : FVec F S100000x128 .f32 :=
  selu (preact (feat X W) (edges (feat X W) rows cols vals) bias skip)

end Cert.ReferenceIdeal.Term

end
-- ==== Proof.RefRun.lean ====
/-
  The reference's run: @main's host operations in order, the outlined selu / elu / where bodies written out at
  their calls, and every weakly fair execution ending with the result buffer at `Term.out` of the arguments.
-/
import proofs.«151549_j10290741641786_1_alg».proof.Proof.RefTerm
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 43 operations in order: @main's own 24 (the matrix product, the edge gather / scale / scatter-add, the skip
    and bias terms), then selu's body at its call — its α constant; elu's 14 (three zeros with their broadcasts and
    comparisons, `_where`'s convert / broadcast / select, expm1, α converted, broadcast and multiplied, `_where_0`'s
    select); selu's λ, its broadcast and the final product. -/
abbrev ops : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v1 (broadcastInDim S600000x1 ![0] bcast_S600000_S600000x1_0 : (⟨S600000, .f32⟩ : BufTy).Contents (Elt F) → (⟨S600000x1, .f32⟩ : BufTy).Contents (Elt F)),
    nullary main_c (constantI S_ 32 0#32),
    unary main_c main_v2 (broadcastInDim S600000 ![] bcast_S_S600000 : (⟨S_, .i32⟩ : BufTy).Contents (Elt F) → (⟨S600000, .i32⟩ : BufTy).Contents (Elt F)),
    binary main_arg2 main_v2 main_v3 (cmpi .slt : (⟨S600000, .i32⟩ : BufTy).Contents (Elt F) → (⟨S600000, .i32⟩ : BufTy).Contents (Elt F) → (⟨S600000, .i1⟩ : BufTy).Contents (Elt F)),
    nullary main_c_0 (constantI S_ 32 100000#32),
    unary main_c_0 main_v4 (broadcastInDim S600000 ![] bcast_S_S600000 : (⟨S_, .i32⟩ : BufTy).Contents (Elt F) → (⟨S600000, .i32⟩ : BufTy).Contents (Elt F)),
    binary main_arg2 main_v4 main_v5 (addi : (⟨S600000, .i32⟩ : BufTy).Contents (Elt F) → (⟨S600000, .i32⟩ : BufTy).Contents (Elt F) → (⟨S600000, .i32⟩ : BufTy).Contents (Elt F)),
    ternary main_v3 main_v5 main_arg2 main_v6 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v6 main_v7 (broadcastInDim S600000x1 ![0] bcast_S600000_S600000x1_0 : (⟨S600000, .i32⟩ : BufTy).Contents (Elt F) → (⟨S600000x1, .i32⟩ : BufTy).Contents (Elt F)),
    binary main_v0 main_v7 main_v8 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    unary main_v1 main_v9 (broadcastInDim S600000x128 ![0, 1] bcast_S600000x1_S600000x128_0_1 : (⟨S600000x1, .f32⟩ : BufTy).Contents (Elt F) → (⟨S600000x128, .f32⟩ : BufTy).Contents (Elt F)),
    binary main_v9 main_v8 main_v10 (mulf : (⟨S600000x128, .f32⟩ : BufTy).Contents (Elt F) → (⟨S600000x128, .f32⟩ : BufTy).Contents (Elt F) → (⟨S600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_arg6 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v0 main_v15 main_v16 (mulf : (⟨S100000x128, .f32⟩ : BufTy).Contents (Elt F) → (⟨S100000x128, .f32⟩ : BufTy).Contents (Elt F) → (⟨S100000x128, .f32⟩ : BufTy).Contents (Elt F)),
    binary main_v16 main_v13 main_v17 (addf : (⟨S100000x128, .f32⟩ : BufTy).Contents (Elt F) → (⟨S100000x128, .f32⟩ : BufTy).Contents (Elt F) → (⟨S100000x128, .f32⟩ : BufTy).Contents (Elt F)),
    unary main_arg5 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v17 main_v19 main_v20 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S100000x128 ![] bcast_S_S100000x128),
    TRef.binary (.of main_v20) main_call0.call0.v0 main_call0.call0.v1 (cmpf .ogt),
    TRef.nullary main_call0.call0.cst_0 (constant S_ .f32 0x00000000#32),
    TRef.unary main_call0.call0.cst_0 main_call0.call0.v2 (broadcastInDim S100000x128 ![] bcast_S_S100000x128),
    TRef.binary (.of main_v20) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S100000x128 ![] bcast_S_S100000x128),
    TRef.ternary main_call0.call0.v3 main_call0.call0.call0.v1 (.of main_v20) main_call0.call0.call0.v2 select,
    TRef.unary main_call0.call0.call0.v2 main_call0.call0.v5 Host.expm1,
    TRef.unary main_call0.cst main_call0.call0.v6 id,
    TRef.unary main_call0.call0.v6 main_call0.call0.v7 (broadcastInDim S100000x128 ![] bcast_S_S100000x128),
    TRef.binary main_call0.call0.v7 main_call0.call0.v5 main_call0.call0.v8 mulf,
    TRef.ternary main_call0.call0.v1 (.of main_v20) main_call0.call0.v8 main_call0.call0.call1.v0 select,
    TRef.nullary main_call0.cst_0 (constant S_ .f32 0x3F867D5F#32),
    TRef.unary main_call0.cst_0 main_call0.v1 (broadcastInDim S100000x128 ![] bcast_S_S100000x128),
    TRef.binary main_call0.v1 main_call0.call0.call1.v0 main_call0.v2 mulf ]

set_option maxRecDepth 2048 in
/-- @main is that straight line: the four callees unfolded at their calls, sequencing reassociated. -/
theorem main_eq (c : Dev nD) : main (F := F) c = seq ops := by
  simp only [main, fn_selu.body, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., unary_bufs_sub .., unary_bufs_sub .., binary_bufs_sub .., ternary_bufs_sub .., nullary_bufs_sub .., unary_bufs_sub .., binary_bufs_sub ..⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = Term.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v21).trans (by
      after_results_simp
      simp only [TRef.ofBuf, TRef.toBuf, cast_eq]
      unfold Term.out Term.selu Term.preact Term.edges Term.feat Term.alongNodes Term.splat Cert.Gcn.agg
      rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp)⟩)
    (run_seq scopedRefs_eq scopedSems_eq defs main (fun _ => ops) main_eq (fun _ => ops_sub) m ρ)

end Cert.ReferenceIdeal.HandRun

end
-- ==== Proof.Bridge.lean ====
/-
  The two programs' results are one function of the arguments, at the ideal values.

  · The host's matrix product and the blocked kernel product are both  ∑ κ < 128, X (p, κ) · W (κ, q).
  · The edge aggregation is the same host function on both sides (equal dimension numbers), applied to equal h.
  · Skip weights and bias reach entry (p, q) as s q and b q on both sides: broadcast along the node axis in the
    reference, held as one-row arrays in the kernel.
  · jax's selu applies expm1 to where (x > 0, 0, x); where x > 0 the outer where takes x itself, and elsewhere the
    inner where is x, so it is  λ · (x if x > 0 else α · (exp x − 1)),  the kernel's form (exp x − 1 with the
    literal one, which denotes 1).
-/
import proofs.«151549_j10290741641786_1_alg».proof.Proof.RefTerm
import proofs.«151549_j10290741641786_1_alg».proof.Proof.HostStretch
import proofs.«151549_j10290741641786_1_alg».proof.Proof.LibPlainDot
import Idealize.ShloMosaic.Lib.ValueLayout
import Idealize.ShloMosaic.Lib.IdealHost

noncomputable section

namespace Cert.Bridge

open Idealize.ShloMosaic Idealize.ShloMosaic.ValueIdx

/-- The reference's dimension numbers are those of a plain matrix product. -/
theorem ref_plain : Cert.PlainDot.Plain (a := 100000) (k := 128) (b := 128)
    Cert.ReferenceIdeal.dot_S100000x128_S128x128_S100000x128_1_0_0_1_n_n :=
  ⟨rfl, rfl, rfl, rfl, rfl, rfl⟩

/-- The host's product is the sum over the contracted index. -/
theorem feat_eq (X : FVec Ideal Cert.Gcn.Nodes .f32) (W : FVec Ideal Cert.Gcn.Wts .f32) :
    Cert.ReferenceIdeal.Term.feat (F := Ideal) X W = Cert.Gcn.proj X W := by
  funext i
  obtain ⟨p, q, rfl⟩ : ∃ (p : Fin 100000) (q : Fin 128), i = ix2 p q := ⟨i 0, i 1, eq_ix2 i⟩
  exact Cert.PlainDot.dotGeneral_apply ref_plain rfl rfl none X W p q

/-- The two programs aggregate with the same gather and scatter. -/
theorem edges_eq {F : FTy → Type} [FloatOps F] (h : FVec F Cert.Gcn.Nodes .f32) (rows cols : IVec Cert.Gcn.Edges 32)
    (vals : FVec F Cert.Gcn.Edges .f32) :
    Cert.ReferenceIdeal.Term.edges h rows cols vals = Cert.KernelIdeal.Between.edges h rows cols vals := rfl

/-- A channel vector laid along the nodes reads, at (p, q), its entry q. -/
theorem alongNodes_apply (v : FVec Ideal Cert.Gcn.Chan .f32) (p : Fin 100000) (q : Fin 128) :
    Cert.ReferenceIdeal.Term.alongNodes v (ix2 p q) = v (ix1 q) := by
  unfold Cert.ReferenceIdeal.Term.alongNodes
  refine (broadcastInDim_apply _ _ _ (ix2 p q) (ix2 (0 : Fin 1) q) fun ax => ?_).trans ?_
  · match ax with
    | ⟨0, _⟩ => rfl
    | ⟨1, _⟩ => rfl
  · refine broadcastInDim_apply _ _ _ (ix2 (0 : Fin 1) q) (ix1 q) fun ax => ?_
    match ax with
    | ⟨0, _⟩ => rfl

/-- A channel vector as a one-row array reads, at (0, q), its entry q. -/
theorem asRow_apply (v : FVec Ideal Cert.Gcn.Chan .f32) (q : Fin 128) :
    Cert.KernelIdeal.Between.asRow v (ix2 (0 : Fin 1) q) = v (ix1 q) :=
  shapeCast_a_1a_apply v _ 0 q

/-- jax's selu on one value is the kernel's. -/
theorem selu_scalar (x : EReal) :
    FloatOps.mulf (F := Ideal) (φ := .f32) (FloatOps.ofBits .f32 0x3F867D5F#32)
        (Scalar.select (FloatOps.cmpf (F := Ideal) (φ := .f32) .ogt x (FloatOps.ofBits .f32 0x00000000#32)) x
          (FloatOps.mulf (F := Ideal) (φ := .f32) (FloatOps.ofBits .f32 0x3FD62D7D#32)
            (FloatOps.hostUnary (F := Ideal) (φ := .f32) .expm1
              (Scalar.select (FloatOps.cmpf (F := Ideal) (φ := .f32) .ogt x (FloatOps.ofBits .f32 0x00000000#32))
                (FloatOps.ofBits (F := Ideal) .f32 0x00000000#32) x))))
      = Cert.Gcn.act (F := Ideal) x := by
  unfold Cert.Gcn.act
  rcases BitVec.eq_zero_or_eq_one (FloatOps.cmpf (F := Ideal) (φ := .f32) .ogt x (FloatOps.ofBits .f32 0x00000000#32)) with hc | hc
  · rw [hc, select_zero, select_zero, select_zero]
    show _ = FloatOps.mulf (F := Ideal) (φ := .f32) _ (FloatOps.mulf (F := Ideal) (φ := .f32) _ (Ideal.exp x - Ideal.ofBits .f32 0x3F800000#32))
    rw [Ideal.ofBits_one_f32]
    rfl
  · rw [hc, select_one, select_one]

/-- jax's selu of h · skip + agg + bias, the channel vectors broadcast along the nodes, is the kernel's combination
    with the channel vectors as one-row arrays. -/
theorem selu_eq (h a : FVec Ideal Cert.Gcn.Nodes .f32) (bias skip : FVec Ideal Cert.Gcn.Chan .f32) :
    Cert.ReferenceIdeal.Term.selu (Cert.ReferenceIdeal.Term.preact h a bias skip)
      = Cert.Gcn.comb h a (Cert.KernelIdeal.Between.asRow skip) (Cert.KernelIdeal.Between.asRow bias) := by
  funext i
  obtain ⟨p, q, rfl⟩ : ∃ (p : Fin 100000) (q : Fin 128), i = ix2 p q := ⟨i 0, i 1, eq_ix2 i⟩
  have hx : Cert.ReferenceIdeal.Term.preact h a bias skip (ix2 p q)
      = Cert.Gcn.pre h a (Cert.KernelIdeal.Between.asRow skip) (Cert.KernelIdeal.Between.asRow bias) (ix2 p q) := by
    show FloatOps.addf (FloatOps.addf (FloatOps.mulf (h (ix2 p q)) (Cert.ReferenceIdeal.Term.alongNodes skip (ix2 p q))) (a (ix2 p q)))
        (Cert.ReferenceIdeal.Term.alongNodes bias (ix2 p q))
      = FloatOps.addf (FloatOps.addf (FloatOps.mulf (h (ix2 p q)) (Cert.KernelIdeal.Between.asRow skip (ix2 (0 : Fin 1) q))) (a (ix2 p q)))
        (Cert.KernelIdeal.Between.asRow bias (ix2 (0 : Fin 1) q))
    rw [alongNodes_apply, alongNodes_apply, asRow_apply, asRow_apply]
  show _ = Cert.Gcn.act (Cert.Gcn.pre h a (Cert.KernelIdeal.Between.asRow skip) (Cert.KernelIdeal.Between.asRow bias) (ix2 p q))
  rw [← hx]
  exact selu_scalar _

/-- The reference's result term is the kernel's. -/
theorem out_eq (X : FVec Ideal Cert.Gcn.Nodes .f32) (rows cols : IVec Cert.Gcn.Edges 32) (vals : FVec Ideal Cert.Gcn.Edges .f32)
    (W : FVec Ideal Cert.Gcn.Wts .f32) (bias skip : FVec Ideal Cert.Gcn.Chan .f32) :
    Cert.ReferenceIdeal.Term.out (F := Ideal) X rows cols vals W bias skip
      = Cert.Gcn.comb (Cert.Gcn.proj X W) (Cert.KernelIdeal.Between.edges (Cert.Gcn.proj X W) rows cols vals)
          (Cert.KernelIdeal.Between.asRow skip) (Cert.KernelIdeal.Between.asRow bias) := by
  unfold Cert.ReferenceIdeal.Term.out
  rw [feat_eq, edges_eq]
  exact selu_eq _ _ _ _

end Cert.Bridge

end
-- ==== Proof.lean ====
/-
  One layer of graph message passing, a two-kernel program against its plain array reference: equivalence over the
  extended reals.

  Both programs compute, from node features X, weights W, weighted edges (rows, cols, vals), skip weights s and bias b,

      selu (h · s + agg + b),    h = X · W,    agg = the messages vals e · h (cols e, ·) summed by destination row rows e.

  The kernel program forms h block by block on the matrix unit (rounding its operands to a narrower format first,
  which is the identity at the ideal values), runs the gather and the scatter-add on the host exactly as the
  reference does, and applies the skip, the bias and the activation in a second kernel, twenty blocks of 5000
  rows each. At the ideal values a blocked product and the host's product are the same sum over the contracted
  index, so the two h agree; the aggregation is then the same function of equal arguments; and the activation
  differs only in spelling: the reference's expm1 (where (x > 0, 0, x)) is read only where x ≤ 0, where it is
  exp x − 1, the kernel's form. No law used needs finite inputs, so the precondition is never opened.

  The frames of the two kernel programs are the generated ones; the reference has no kernel, and its frame is its run
  with the result dropped. The idealization rewrote nothing, so there is nothing to preserve.
-/
import proofs.«151549_j10290741641786_1_alg».proof.Defs
import proofs.«151549_j10290741641786_1_alg».proof.Proof.Gen.Kernel
import proofs.«151549_j10290741641786_1_alg».proof.Proof.Gen.Kernel.Frame
import proofs.«151549_j10290741641786_1_alg».proof.Proof.Gen.KernelIdeal
import proofs.«151549_j10290741641786_1_alg».proof.Proof.Gen.KernelIdeal.Frame
import proofs.«151549_j10290741641786_1_alg».proof.Proof.Gen.ReferenceIdeal
import proofs.«151549_j10290741641786_1_alg».proof.Proof.Gen.Pre_finite_inputs
import proofs.«151549_j10290741641786_1_alg».proof.Proof.KernelValue
import proofs.«151549_j10290741641786_1_alg».proof.Proof.RefRun
import proofs.«151549_j10290741641786_1_alg».proof.Proof.Bridge

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories that agree on the seven arguments both programs end with the same result array. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.HandRun.run (F := Ideal) m' ρ')
  obtain ⟨e0, e1, e2, e3, e4, e5, e6⟩ := hagree c
  rw [e0, e1, e2, e3, e4, e5, e6]
  exact Cert.Bridge.out_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
